-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x128 .f32) (main_arg1 : IVec S8192x8192 32) (main_arg2 : FVec F S128x128 .f32) (main_arg3 : FVec F S128x128 .f32) (main_arg4 : FVec F S128x128 .f32) (main_arg5 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S128x384 : Shape := ⟨2, ![128, 384]⟩
abbrev S8192x384 : Shape := ⟨2, ![8192, 384]⟩
abbrev S1024x128 : Shape := ⟨2, ![1024, 128]⟩
abbrev S1024x384 : Shape := ⟨2, ![1024, 384]⟩
abbrev S1x128 : Shape := ⟨2, ![1, 128]⟩
abbrev S512x8192 : Shape := ⟨2, ![512, 8192]⟩
abbrev S512x128 : Shape := ⟨2, ![512, 128]⟩

abbrev nBuf : Space → Nat
  | .hbm => 10
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x384, .f32⟩
  | .hbm, ⟨7, _⟩ => ⟨S8192x384, .bf16⟩
  | .hbm, ⟨8, _⟩ => ⟨S1x128, .f32⟩
  | .hbm, ⟨9, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S128x384, .f32⟩
  | .local _ .vmem, ⟨3, _⟩ => ⟨S1024x384, .bf16⟩
  | .local _ .vmem, ⟨4, _⟩ => ⟨S1024x384, .bf16⟩
  | .local _ .vmem, ⟨5, _⟩ => ⟨S512x8192, .i32⟩
  | .local _ .vmem, ⟨6, _⟩ => ⟨S512x8192, .i32⟩
  | .local _ .vmem, ⟨7, _⟩ => ⟨S8192x384, .bf16⟩
  | .local _ .vmem, ⟨8, _⟩ => ⟨S1x128, .f32⟩
  | .local _ .vmem, ⟨9, _⟩ => ⟨S512x128, .f32⟩
  | .local _ .vmem, ⟨10, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S128x128_S128x128_S128x128_S128x384_d1 : Shape.Concatenates [S128x128, S128x128, S128x128] S128x384 1
  inb_S1024x128_S1024x128_0_0 : ∀ a, (![0, 0] : Fin 2 → Nat) a + S1024x128.size a ≤ S1024x128.size a
  h_S1024x128 : 0 < S1024x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  packedbf16_S1024x384_S1024x384_0_0 : (Rect.unit (s := S1024x384) ![0, 0] S1024x384.size inb_S1024x384_S1024x384_0_0).PackedRows (EltTy.packing .bf16)
  shapeCasts_S128_S1x128 : S128.ShapeCasts S1x128
  inb_S512x8192_S512x8192_0_0 : ∀ a, (![0, 0] : Fin 2 → Nat) a + S512x8192.size a ≤ S512x8192.size a
  h_S512x8192 : 0 < S512x8192.numel
  inb_S8192x384_S8192x384_0_0 : ∀ a, (![0, 0] : Fin 2 → Nat) a + S8192x384.size a ≤ S8192x384.size a
  h_S8192x384 : 0 < S8192x384.numel
  shapeCasts_S8192x384_S8192x384 : S8192x384.ShapeCasts S8192x384
  natLt_1_32 : 1 < 32
  slices_S8192x384_o0_0_S8192x128 : S8192x384.Slices ![0, 0] S8192x128
  slices_S8192x384_o0_128_S8192x128 : S8192x384.Slices ![0, 128] S8192x128
  slices_S8192x384_o0_256_S8192x128 : S8192x384.Slices ![0, 256] S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S1024x128_S128x384_S1024x384_1_0_0_1_n_n_wf : DotDims.WF S1024x128 S128x384 S1024x384 [1] [0] [0] [1] [] []
  dot_S512x8192_S8192x128_S512x128_1_0_0_1_n_n_wf : DotDims.WF S512x8192 S8192x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x384.size a ≤ S8192x384.size a
  hwx0_2 : ∀ i : grid0.Coords, EltTy.bits .bf16 = 32 ∨ (Rect.block (s := S8192x384) S1024x384.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .i32 = 32 ∨ (Rect.block (s := S8192x8192) S512x8192.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x384.size a ≤ S8192x384.size a
  hwx1_1 : ∀ i : grid1.Coords, EltTy.bits .bf16 = 32 ∨ (Rect.block (s := S8192x384) S8192x384.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x128.size a
  hwx1_3 : ∀ i : grid1.Coords, EltTy.bits .f32 = 32 ∨ (Rect.block (s := S8192x128) S512x128.size (cc1_transform_3 i) (hinb1_3 i)).WholeWords (EltTy.packing .f32)

variable [Facts₀]

def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S_, .i32⟩
  | .hbm, ⟨11, _⟩ => ⟨S8192x8192, .i32⟩
  | .hbm, ⟨12, _⟩ => ⟨S8192x8192, .i1⟩
  | .hbm, ⟨13, _⟩ => ⟨S8192x8192, .f32⟩
  | .hbm, ⟨14, _⟩ => ⟨S_, .i32⟩
  | .hbm, ⟨15, _⟩ => ⟨S8192x8192, .i32⟩
  | .hbm, ⟨16, _⟩ => ⟨S8192x8192, .i1⟩
  | .hbm, ⟨17, _⟩ => ⟨S8192x8192, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S1x128, .f32⟩
  | .hbm, ⟨27, _⟩ => ⟨S8192x128, .f32⟩
  | .hbm, ⟨28, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Kernel.Region0.lean ====
/-
  The feature projection's region: one grid point multiplies a block of 1024 feature rows by the three weight
  matrices laid side by side and stores the 1024 × 384 block of projected features.

  Stated at a parameter `V`, the contents of the core's arrays when the region is entered: a window's block at a
  point is that window's rectangle of its array; the body leaves in the output window's buffer the product of the
  two input blocks (the buffer's one store covers it); the input buffers hold their blocks at every point, whether the
  pipeline fetched them there or kept them from the point before.
-/
import proofs.«142277_g24739011625684_cont_8to1_1532_25_alg».proof.Proof.Gen.Kernel.Launch
import proofs.«142277_g24739011625684_cont_8to1_1532_25_alg».proof.Proof.Gen.Kernel.Skeleton
import proofs.«142277_g24739011625684_cont_8to1_1532_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' buffer holds the point's block of rows. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' buffer holds the whole weight array at every point: fetched once, never moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x128 := Rect.unit (s := S1024x128) ![0, 0] S1024x128.size inb_S1024x128_S1024x128_0_0
abbrev r0_1 : Rect S128x384 := Rect.unit (s := S128x384) ![0, 0] S128x384.size inb_S128x384_S128x384_0_0
abbrev r0_2 : Rect S1024x384 := Rect.unit (s := S1024x384) ![0, 0] S1024x384.size inb_S1024x384_S1024x384_0_0

/-- The projected block: what the body's one store leaves in the output buffer. -/
def out0_2 (x0 : Vec F S1024x128 .f32) (x1 : Vec F S128x384 .f32) : Vec F S1024x384 .bf16 :=
  View.canon [⟨r0_2, k0_pay1 (View.ld x0 r0_0) (View.ld x1 r0_1)⟩]

/-- The store is of the whole buffer. -/
theorem cover0_2 (p0 : Vec F S1024x384 .bf16) (y : S1024x384.Idx) :
    ∃ pc ∈ ([⟨r0_2, p0⟩] : List (View.Piece (Elt F) S1024x384 .bf16)), y ∈ pc.1.set :=
  View.cover_of_tiled [⟨r0_2, p0⟩] S1024x384.size (by rfl) y

set_option maxHeartbeats 1000000 in
/-- The body on whole buffers: the inputs are read and kept, the output ends at the projected block. -/
theorem sound_kernel0 (c : Dev nD) (E : Set ℕ) (i : grid0.Coords) (arg1 : Memref sig .tc .vmem S1024x128 .f32) (harg1 : arg1.IsWhole)
    (arg2 : Memref sig .tc .vmem S128x384 .f32) (harg2 : arg2.IsWhole) (arg3 : Memref sig .tc .vmem S1024x384 .bf16) (harg3 : arg3.IsWhole)
    (x0 : Vec F S1024x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__feature_kernel i arg1 harg1 arg2 harg2 arg3 harg3) K := by
  simp only [cc0__feature_kernel_eq_skeleton]; unfold cc0__feature_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as found; each input buffer at its block after the body, the
    output buffer at the projected block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point of the grid. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Region1.lean ====
/-
  The aggregation's region: one grid point takes 512 rows of the adjacency array, the whole array of projected
  features and the bias row, and stores a 512 × 128 block of the result.

  Stated at a parameter `V`, the contents of the core's arrays when the region is entered: a window's block at a
  point is that window's rectangle of its array; the body leaves in the output window's buffer one value computed from
  the three input blocks (the buffer's one store covers it); the input buffers hold their blocks at every point,
  whether the pipeline fetched them there or kept them from the point before.
-/
import proofs.«142277_g24739011625684_cont_8to1_1532_25_alg».proof.Proof.Gen.Kernel.Launch
import proofs.«142277_g24739011625684_cont_8to1_1532_25_alg».proof.Proof.Gen.Kernel.Skeleton
import proofs.«142277_g24739011625684_cont_8to1_1532_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency rows' buffer holds the point's block of rows. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The projected features' buffer holds the whole array at every point: fetched once, never moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's buffer holds the row at every point: fetched once, never moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S512x8192 := Rect.unit (s := S512x8192) ![0, 0] S512x8192.size inb_S512x8192_S512x8192_0_0
abbrev r1_1 : Rect S8192x384 := Rect.unit (s := S8192x384) ![0, 0] S8192x384.size inb_S8192x384_S8192x384_0_0
abbrev r1_2 : Rect S1x128 := Rect.unit (s := S1x128) ![0, 0] S1x128.size inb_S1x128_S1x128_0_0
abbrev r1_3 : Rect S512x128 := Rect.unit (s := S512x128) ![0, 0] S512x128.size inb_S512x128_S512x128_0_0

/-- The aggregated block: what the body's one store leaves in the output buffer. -/
def out1_3 (x0 : Vec F S512x8192 .i32) (x1 : Vec F S8192x384 .bf16) (x2 : Vec F S1x128 .f32) : Vec F S512x128 .f32 :=
  View.canon [⟨r1_3, k1_pay1 (View.ld x0 r1_0) (View.ld x1 r1_1) (View.ld x2 r1_2)⟩]

/-- The store is of the whole buffer. -/
theorem cover1_3 (p0 : Vec F S512x128 .f32) (y : S512x128.Idx) :
    ∃ pc ∈ ([⟨r1_3, p0⟩] : List (View.Piece (Elt F) S512x128 .f32)), y ∈ pc.1.set :=
  View.cover_of_tiled [⟨r1_3, p0⟩] S512x128.size (by rfl) y

set_option maxHeartbeats 1000000 in
/-- The body on whole buffers: the inputs are read and kept, the output ends at the aggregated block. -/
theorem sound_kernel1 (c : Dev nD) (E : Set ℕ) (i : grid1.Coords) (arg1 : Memref sig .tc .vmem S512x8192 .i32) (harg1 : arg1.IsWhole)
    (arg2 : Memref sig .tc .vmem S8192x384 .bf16) (harg2 : arg2.IsWhole) (arg3 : Memref sig .tc .vmem S1x128 .f32) (harg3 : arg3.IsWhole)
    (arg4 : Memref sig .tc .vmem S512x128 .f32) (harg4 : arg4.IsWhole)
    (x0 : Vec F S512x8192 .i32) (x1 : Vec F S8192x384 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__spmm_kernel i arg1 harg1 arg2 harg2 arg3 harg3 arg4 harg4) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as found; each input buffer at its block after the body, the
    output buffer at the aggregated block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is handed at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point of the grid. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.Kernel.Run.lean ====
/-
  The whole run: the weights are laid side by side, the projection's region runs, the bias is reshaped to a row,
  the aggregation's region runs.

  The contents of the core's arrays at the four boundaries are a fold from the launch memory: a host step leaves
  what its operation writes, a region leaves each of its arrays at what its write-backs leave and every other array as
  found. Each region is entered with every array at the boundary's contents and left with every array at the next
  boundary's; nothing is owed, and no semaphore is the kernels' own. Every weakly fair execution therefore ends, nothing
  faulting, with every array at the last boundary's contents; read back through the fold, each argument is as launched
  and the result is what the aggregation's write-backs leave.
-/
import proofs.«142277_g24739011625684_cont_8to1_1532_25_alg».proof.Proof.Kernel.Region0
import proofs.«142277_g24739011625684_cont_8to1_1532_25_alg».proof.Proof.Kernel.Region1
import proofs.«142277_g24739011625684_cont_8to1_1532_25_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

/-- At launch. -/
abbrev W0 : Dev nD → Valuation τ sig (Elt F) := fun c b => (s₀ m ρ).mem ((c : Dev nD), b)
/-- After the weights are laid side by side: the projection's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the write-backs leave, every other array as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the bias is reshaped to a row: the aggregation's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the aggregation's exit: its arrays at what the write-backs leave, every other array as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched; the entry contents of each region's arrays -/

/-- The feature rows: the projection reads them through an input window; nothing writes them. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 (W2 m ρ c) hostOps1_writes (by decide : (main_arg0 : Ref sig .tc) ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 (W0 m ρ c) hostOps0_writes (by decide : (main_arg0 : Ref sig .tc) ∉ hostOps0_W)
    _ = m ((c : Thread nD τ).loc main_arg0) := rfl

/-- The adjacency array at the aggregation's entry is as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps1 (W2 m ρ c) hostOps1_writes (by decide : (main_arg1 : Ref sig .tc) ∉ hostOps1_W)
    _ = W1 m ρ c (Proc.devRef .tc main_arg1) := W2_of_ne m ρ c main_arg1 (by decide)
    _ = W0 m ρ c (Proc.devRef .tc main_arg1) := StableHlo.after_of_writes_sub hostOps0 (W0 m ρ c) hostOps0_writes (by decide : (main_arg1 : Ref sig .tc) ∉ hostOps0_W)
    _ = m ((c : Thread nD τ).loc main_arg1) := rfl

/-- The adjacency array: the aggregation reads it through an input window; nothing writes it. -/
theorem W4_main_arg1 (c : Dev nD) : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (W3_main_arg1 m ρ c)

/-- An array that no window stages and no host step writes ends as launched. -/
theorem W4_untouched (c : Dev nD) (r : Ref sig .tc) (h1 : ∀ w, Pipeline.arrRef spec1 w ≠ r) (h0 : ∀ w, Pipeline.arrRef spec0 w ≠ r)
    (g1 : r ∉ hostOps1_W) (g0 : r ∉ hostOps0_W) : W4 m ρ c (Proc.devRef .tc r) = m ((c : Thread nD τ).loc r) :=
  calc W4 m ρ c (Proc.devRef .tc r)
    _ = W3 m ρ c (Proc.devRef .tc r) := W4_of_ne m ρ c r h1
    _ = W2 m ρ c (Proc.devRef .tc r) := StableHlo.after_of_writes_sub hostOps1 (W2 m ρ c) hostOps1_writes g1
    _ = W1 m ρ c (Proc.devRef .tc r) := W2_of_ne m ρ c r h0
    _ = W0 m ρ c (Proc.devRef .tc r) := StableHlo.after_of_writes_sub hostOps0 (W0 m ρ c) hostOps0_writes g0
    _ = m ((c : Thread nD τ).loc r) := rfl

theorem W4_main_arg2 (c : Dev nD) : W4 m ρ c (Proc.devRef .tc main_arg2) = m ((c : Thread nD τ).loc main_arg2) :=
  W4_untouched m ρ c main_arg2 (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide)
theorem W4_main_arg4 (c : Dev nD) : W4 m ρ c (Proc.devRef .tc main_arg4) = m ((c : Thread nD τ).loc main_arg4) :=
  W4_untouched m ρ c main_arg4 (by decide) (by decide) (by decide) (by decide)
theorem W4_main_arg5 (c : Dev nD) : W4 m ρ c (Proc.devRef .tc main_arg5) = m ((c : Thread nD τ).loc main_arg5) :=
  W4_untouched m ρ c main_arg5 (by decide) (by decide) (by decide) (by decide)

/-- The result array ends at what the aggregation's write-backs leave. -/
theorem W4_main_v3 (c : Dev nD) : W4 m ρ c (Proc.devRef .tc main_v3) = (dat1 (V3 m ρ) c).arrAt 3 cfg1.N :=
  W4_arr m ρ c 3

/-- The projected features at the aggregation's entry are what the projection's write-backs leave. -/
theorem W3_main_v1 (c : Dev nD) : W3 m ρ c (Proc.devRef .tc main_v1) = (dat0 (V1 m ρ) c).arrAt 2 cfg0.N :=
  (StableHlo.after_of_writes_sub hostOps1 (W2 m ρ c) hostOps1_writes (by decide : (main_v1 : Ref sig .tc) ∉ hostOps1_W)).trans (W2_arr m ρ c 2)

/-- The feature rows at the projection's entry are as launched. -/
theorem W1_main_arg0 (c : Dev nD) : W1 m ρ c (Proc.devRef .tc main_arg0) = m ((c : Thread nD τ).loc main_arg0) :=
  StableHlo.after_of_writes_sub hostOps0 (W0 m ρ c) hostOps0_writes (by decide : (main_arg0 : Ref sig .tc) ∉ hostOps0_W)

/-- An argument that region 0 does not stage is, at the second host step's entry, as launched. -/
theorem W2_main_arg5 (c : Dev nD) : W2 m ρ c (Proc.devRef .tc main_arg5) = m ((c : Thread nD τ).loc main_arg5) :=
  (W2_of_ne m ρ c main_arg5 (by decide)).trans (StableHlo.after_of_writes_sub hostOps0 (W0 m ρ c) hostOps0_writes (by decide : (main_arg5 : Ref sig .tc) ∉ hostOps0_W))

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the arrays through every step: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as steps of the run -/

set_option backward.isDefEq.respectTransparency.types false in
/-- The projection's region: entered from every array at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation's region: entered from every array at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution from memory `m` with zero counters ends, nothing faulting, with every array of the
    core at the last boundary's contents: any property of final memories that follows from that holds of the run. -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_all m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩

/-- The arguments end as launched and the result array at what the aggregation's write-backs leave. -/
theorem run_named : θ_run defs (onTc (τ := τ) (main (F := F))) ⟨m, fun _ => 0, ρ⟩ (fun r => ∀ c : Dev nD,
      r.2.mem ((c.tc : Thread nD τ).loc main_v3) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_all m ρ fun s h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩

end Cert.Kernel.Fr

end
-- ==== Proof.KernelIdeal.Region0.lean ====
/-
  The feature projection's region: one grid point multiplies a block of 1024 feature rows by the three weight
  matrices laid side by side and stores the 1024 × 384 block of projected features.

  Stated at a parameter `V`, the contents of the core's arrays when the region is entered: a window's block at a
  point is that window's rectangle of its array; the body leaves in the output window's buffer the product of the
  two input blocks (the buffer's one store covers it); the input buffers hold their blocks at every point, whether the
  pipeline fetched them there or kept them from the point before.
-/
import proofs.«142277_g24739011625684_cont_8to1_1532_25_alg».proof.Proof.Gen.KernelIdeal.Launch
import proofs.«142277_g24739011625684_cont_8to1_1532_25_alg».proof.Proof.Gen.KernelIdeal.Skeleton
import proofs.«142277_g24739011625684_cont_8to1_1532_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' buffer holds the point's block of rows. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' buffer holds the whole weight array at every point: fetched once, never moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x128 := Rect.unit (s := S1024x128) ![0, 0] S1024x128.size inb_S1024x128_S1024x128_0_0
abbrev r0_1 : Rect S128x384 := Rect.unit (s := S128x384) ![0, 0] S128x384.size inb_S128x384_S128x384_0_0
abbrev r0_2 : Rect S1024x384 := Rect.unit (s := S1024x384) ![0, 0] S1024x384.size inb_S1024x384_S1024x384_0_0

/-- The projected block: what the body's one store leaves in the output buffer. -/
def out0_2 (x0 : Vec F S1024x128 .f32) (x1 : Vec F S128x384 .f32) : Vec F S1024x384 .bf16 :=
  View.canon [⟨r0_2, k0_pay1 (View.ld x0 r0_0) (View.ld x1 r0_1)⟩]

/-- The store is of the whole buffer. -/
theorem cover0_2 (p0 : Vec F S1024x384 .bf16) (y : S1024x384.Idx) :
    ∃ pc ∈ ([⟨r0_2, p0⟩] : List (View.Piece (Elt F) S1024x384 .bf16)), y ∈ pc.1.set :=
  View.cover_of_tiled [⟨r0_2, p0⟩] S1024x384.size (by rfl) y

set_option maxHeartbeats 1000000 in
/-- The body on whole buffers: the inputs are read and kept, the output ends at the projected block. -/
theorem sound_kernel0 (c : Dev nD) (E : Set ℕ) (i : grid0.Coords) (arg1 : Memref sig .tc .vmem S1024x128 .f32) (harg1 : arg1.IsWhole)
    (arg2 : Memref sig .tc .vmem S128x384 .f32) (harg2 : arg2.IsWhole) (arg3 : Memref sig .tc .vmem S1024x384 .bf16) (harg3 : arg3.IsWhole)
    (x0 : Vec F S1024x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__feature_kernel i arg1 harg1 arg2 harg2 arg3 harg3) K := by
  simp only [cc0__feature_kernel_eq_skeleton]; unfold cc0__feature_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as found; each input buffer at its block after the body, the
    output buffer at the projected block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point of the grid. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Region1.lean ====
/-
  The aggregation's region: one grid point takes 512 rows of the adjacency array, the whole array of projected
  features and the bias row, and stores a 512 × 128 block of the result.

  Stated at a parameter `V`, the contents of the core's arrays when the region is entered: a window's block at a
  point is that window's rectangle of its array; the body leaves in the output window's buffer one value computed from
  the three input blocks (the buffer's one store covers it); the input buffers hold their blocks at every point,
  whether the pipeline fetched them there or kept them from the point before.
-/
import proofs.«142277_g24739011625684_cont_8to1_1532_25_alg».proof.Proof.Gen.KernelIdeal.Launch
import proofs.«142277_g24739011625684_cont_8to1_1532_25_alg».proof.Proof.Gen.KernelIdeal.Skeleton
import proofs.«142277_g24739011625684_cont_8to1_1532_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency rows' buffer holds the point's block of rows. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The projected features' buffer holds the whole array at every point: fetched once, never moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's buffer holds the row at every point: fetched once, never moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S512x8192 := Rect.unit (s := S512x8192) ![0, 0] S512x8192.size inb_S512x8192_S512x8192_0_0
abbrev r1_1 : Rect S8192x384 := Rect.unit (s := S8192x384) ![0, 0] S8192x384.size inb_S8192x384_S8192x384_0_0
abbrev r1_2 : Rect S1x128 := Rect.unit (s := S1x128) ![0, 0] S1x128.size inb_S1x128_S1x128_0_0
abbrev r1_3 : Rect S512x128 := Rect.unit (s := S512x128) ![0, 0] S512x128.size inb_S512x128_S512x128_0_0

/-- The aggregated block: what the body's one store leaves in the output buffer. -/
def out1_3 (x0 : Vec F S512x8192 .i32) (x1 : Vec F S8192x384 .bf16) (x2 : Vec F S1x128 .f32) : Vec F S512x128 .f32 :=
  View.canon [⟨r1_3, k1_pay1 (View.ld x0 r1_0) (View.ld x1 r1_1) (View.ld x2 r1_2)⟩]

/-- The store is of the whole buffer. -/
theorem cover1_3 (p0 : Vec F S512x128 .f32) (y : S512x128.Idx) :
    ∃ pc ∈ ([⟨r1_3, p0⟩] : List (View.Piece (Elt F) S512x128 .f32)), y ∈ pc.1.set :=
  View.cover_of_tiled [⟨r1_3, p0⟩] S512x128.size (by rfl) y

set_option maxHeartbeats 1000000 in
/-- The body on whole buffers: the inputs are read and kept, the output ends at the aggregated block. -/
theorem sound_kernel1 (c : Dev nD) (E : Set ℕ) (i : grid1.Coords) (arg1 : Memref sig .tc .vmem S512x8192 .i32) (harg1 : arg1.IsWhole)
    (arg2 : Memref sig .tc .vmem S8192x384 .bf16) (harg2 : arg2.IsWhole) (arg3 : Memref sig .tc .vmem S1x128 .f32) (harg3 : arg3.IsWhole)
    (arg4 : Memref sig .tc .vmem S512x128 .f32) (harg4 : arg4.IsWhole)
    (x0 : Vec F S512x8192 .i32) (x1 : Vec F S8192x384 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__spmm_kernel i arg1 harg1 arg2 harg2 arg3 harg3 arg4 harg4) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as found; each input buffer at its block after the body, the
    output buffer at the aggregated block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is handed at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point of the grid. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdeal.Run.lean ====
/-
  The whole run: the weights are laid side by side, the projection's region runs, the bias is reshaped to a row,
  the aggregation's region runs.

  The contents of the core's arrays at the four boundaries are a fold from the launch memory: a host step leaves
  what its operation writes, a region leaves each of its arrays at what its write-backs leave and every other array as
  found. Each region is entered with every array at the boundary's contents and left with every array at the next
  boundary's; nothing is owed, and no semaphore is the kernels' own. Every weakly fair execution therefore ends, nothing
  faulting, with every array at the last boundary's contents; read back through the fold, each argument is as launched
  and the result is what the aggregation's write-backs leave.
-/
import proofs.«142277_g24739011625684_cont_8to1_1532_25_alg».proof.Proof.KernelIdeal.Region0
import proofs.«142277_g24739011625684_cont_8to1_1532_25_alg».proof.Proof.KernelIdeal.Region1
import proofs.«142277_g24739011625684_cont_8to1_1532_25_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

/-- At launch. -/
abbrev W0 : Dev nD → Valuation τ sig (Elt F) := fun c b => (s₀ m ρ).mem ((c : Dev nD), b)
/-- After the weights are laid side by side: the projection's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the write-backs leave, every other array as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the bias is reshaped to a row: the aggregation's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the aggregation's exit: its arrays at what the write-backs leave, every other array as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched; the entry contents of each region's arrays -/

/-- The feature rows: the projection reads them through an input window; nothing writes them. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 (W2 m ρ c) hostOps1_writes (by decide : (main_arg0 : Ref sig .tc) ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 (W0 m ρ c) hostOps0_writes (by decide : (main_arg0 : Ref sig .tc) ∉ hostOps0_W)
    _ = m ((c : Thread nD τ).loc main_arg0) := rfl

/-- The adjacency array at the aggregation's entry is as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps1 (W2 m ρ c) hostOps1_writes (by decide : (main_arg1 : Ref sig .tc) ∉ hostOps1_W)
    _ = W1 m ρ c (Proc.devRef .tc main_arg1) := W2_of_ne m ρ c main_arg1 (by decide)
    _ = W0 m ρ c (Proc.devRef .tc main_arg1) := StableHlo.after_of_writes_sub hostOps0 (W0 m ρ c) hostOps0_writes (by decide : (main_arg1 : Ref sig .tc) ∉ hostOps0_W)
    _ = m ((c : Thread nD τ).loc main_arg1) := rfl

/-- The adjacency array: the aggregation reads it through an input window; nothing writes it. -/
theorem W4_main_arg1 (c : Dev nD) : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (W3_main_arg1 m ρ c)

/-- An array that no window stages and no host step writes ends as launched. -/
theorem W4_untouched (c : Dev nD) (r : Ref sig .tc) (h1 : ∀ w, Pipeline.arrRef spec1 w ≠ r) (h0 : ∀ w, Pipeline.arrRef spec0 w ≠ r)
    (g1 : r ∉ hostOps1_W) (g0 : r ∉ hostOps0_W) : W4 m ρ c (Proc.devRef .tc r) = m ((c : Thread nD τ).loc r) :=
  calc W4 m ρ c (Proc.devRef .tc r)
    _ = W3 m ρ c (Proc.devRef .tc r) := W4_of_ne m ρ c r h1
    _ = W2 m ρ c (Proc.devRef .tc r) := StableHlo.after_of_writes_sub hostOps1 (W2 m ρ c) hostOps1_writes g1
    _ = W1 m ρ c (Proc.devRef .tc r) := W2_of_ne m ρ c r h0
    _ = W0 m ρ c (Proc.devRef .tc r) := StableHlo.after_of_writes_sub hostOps0 (W0 m ρ c) hostOps0_writes g0
    _ = m ((c : Thread nD τ).loc r) := rfl

theorem W4_main_arg2 (c : Dev nD) : W4 m ρ c (Proc.devRef .tc main_arg2) = m ((c : Thread nD τ).loc main_arg2) :=
  W4_untouched m ρ c main_arg2 (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide)
theorem W4_main_arg4 (c : Dev nD) : W4 m ρ c (Proc.devRef .tc main_arg4) = m ((c : Thread nD τ).loc main_arg4) :=
  W4_untouched m ρ c main_arg4 (by decide) (by decide) (by decide) (by decide)
theorem W4_main_arg5 (c : Dev nD) : W4 m ρ c (Proc.devRef .tc main_arg5) = m ((c : Thread nD τ).loc main_arg5) :=
  W4_untouched m ρ c main_arg5 (by decide) (by decide) (by decide) (by decide)

/-- The result array ends at what the aggregation's write-backs leave. -/
theorem W4_main_v3 (c : Dev nD) : W4 m ρ c (Proc.devRef .tc main_v3) = (dat1 (V3 m ρ) c).arrAt 3 cfg1.N :=
  W4_arr m ρ c 3

/-- The projected features at the aggregation's entry are what the projection's write-backs leave. -/
theorem W3_main_v1 (c : Dev nD) : W3 m ρ c (Proc.devRef .tc main_v1) = (dat0 (V1 m ρ) c).arrAt 2 cfg0.N :=
  (StableHlo.after_of_writes_sub hostOps1 (W2 m ρ c) hostOps1_writes (by decide : (main_v1 : Ref sig .tc) ∉ hostOps1_W)).trans (W2_arr m ρ c 2)

/-- The feature rows at the projection's entry are as launched. -/
theorem W1_main_arg0 (c : Dev nD) : W1 m ρ c (Proc.devRef .tc main_arg0) = m ((c : Thread nD τ).loc main_arg0) :=
  StableHlo.after_of_writes_sub hostOps0 (W0 m ρ c) hostOps0_writes (by decide : (main_arg0 : Ref sig .tc) ∉ hostOps0_W)

/-- An argument that region 0 does not stage is, at the second host step's entry, as launched. -/
theorem W2_main_arg5 (c : Dev nD) : W2 m ρ c (Proc.devRef .tc main_arg5) = m ((c : Thread nD τ).loc main_arg5) :=
  (W2_of_ne m ρ c main_arg5 (by decide)).trans (StableHlo.after_of_writes_sub hostOps0 (W0 m ρ c) hostOps0_writes (by decide : (main_arg5 : Ref sig .tc) ∉ hostOps0_W))

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the arrays through every step: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as steps of the run -/

set_option backward.isDefEq.respectTransparency.types false in
/-- The projection's region: entered from every array at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation's region: entered from every array at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution from memory `m` with zero counters ends, nothing faulting, with every array of the
    core at the last boundary's contents: any property of final memories that follows from that holds of the run. -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_all m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩

/-- The arguments end as launched and the result array at what the aggregation's write-backs leave. -/
theorem run_named : θ_run defs (onTc (τ := τ) (main (F := F))) ⟨m, fun _ => 0, ρ⟩ (fun r => ∀ c : Dev nD,
      r.2.mem ((c.tc : Thread nD τ).loc main_v3) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_all m ρ fun s h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩

end Cert.KernelIdeal.Fr

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Pay0.lean ====
/-
  The first kernel body's arithmetic read at an entry, at the ideal values.

  The body multiplies a block of feature rows by the three weight matrices laid side by side; at the ideal values its
  product into the zero accumulator is the plain sum over the shared axis, and the narrowing to the shorter float format
  changes nothing.
-/
import proofs.«142277_g24739011625684_cont_8to1_1532_25_alg».proof.Proof.Gen.KernelIdeal.Skeleton
import proofs.«142277_g24739011625684_cont_8to1_1532_25_alg».proof.Proof.LibDot
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

variable [Cert.KernelIdeal.Facts]

/-- The first body's dimension record is the plain 1024 × 128 by 128 × 384 product. -/
theorem dot0_eq : dot_S1024x128_S128x384_S1024x384_1_0_0_1_n_n = DotDims.plain 1024 128 384 := rfl

/-- The first body's stored value at entry (r, c): row r of the feature block against column c of the weights. -/
theorem pay0_apply (x0 : FVec Ideal S1024x128 .f32) (x1 : FVec Ideal S128x384 .f32) (r : Fin 1024) (c : Fin 384) :
    k0_pay1 (F := Ideal) x0 x1 (ix2 r c) = ∑ l : Fin 128, x0 (ix2 r l) * x1 (ix2 l c) := by
  refine Eq.trans ?_ (Cert.GNN.matmul_plain_zero_apply none x0 x1 r c)
  show FloatOps.matmul dot_S1024x128_S128x384_S1024x384_1_0_0_1_n_n none x0
      (shapeCast S128x384 x1 Facts₀.shapeCasts_S128x384_S128x384) (constant S1024x384 .f32 0x00000000#32) (ix2 r c) = _
  rw [shapeCast_self, dot0_eq]

end Cert.KernelIdeal.Pay

end
-- ==== Proof.Spec.lean ====
/-
  What the graph convolution computes, entry by entry, over the extended reals.

  Every node `k` has a feature row `V k`. For each of the three relations `c = 1, 2, 3` the features are projected by a
  weight matrix `w_c` (`feat`), and node `i` sums the projected rows of the nodes `k` whose adjacency entry `adj i k`
  is `c` (`agg`: the entry of the 0/1 mask of relation `c` times the projected feature, summed over `k`). The result is
  the three aggregates added in the order 1, 2, 3 and then the bias of the output column.

  The projected features of the three relations laid side by side, `[V w₁ | V w₂ | V w₃]`, are one product of `V`
  against the three weight matrices laid side by side (`wcat`, `featCat`): column `128 c' + j` of it is column `j` of
  relation `c' + 1`.
-/
import Idealize.ShloMosaic.PureOps.Ideal.Laws
import Idealize.ShloMosaic.Lib.ValueIdx

noncomputable section

open scoped BigOperators

namespace Cert.GConv

open Idealize.ShloMosaic Idealize.ShloMosaic.ValueIdx

/-- The mask of relation `c` at an adjacency entry `a`: one where `a = c`, zero elsewhere (the one-bit comparison
    read as a natural number). -/
def msk (c a : BitVec 32) : EReal := (((IntOp.cmpi .eq a c).toNat : ℝ) : EReal)

/-- Row `k` of the features projected by `w`, at column `j`. -/
def feat (V : FVec Ideal ⟨2, ![8192, 128]⟩ .f32) (w : FVec Ideal ⟨2, ![128, 128]⟩ .f32) (k : Fin 8192) (j : Fin 128) : EReal :=
  ∑ l : Fin 128, V (ix2 k l) * w (ix2 l j)

/-- Node `i`'s aggregate over relation `c` of the rows `x k`, at column `j`. -/
def agg (adj : IVec ⟨2, ![8192, 8192]⟩ 32) (c : BitVec 32) (x : Fin 8192 → Fin 128 → EReal) (i : Fin 8192) (j : Fin 128) : EReal :=
  ∑ k : Fin 8192, msk c (adj (ix2 i k)) * x k j

/-- The convolution's entry `(i, j)`. -/
def Gpq (V : FVec Ideal ⟨2, ![8192, 128]⟩ .f32) (adj : IVec ⟨2, ![8192, 8192]⟩ 32)
    (w1 w2 w3 : FVec Ideal ⟨2, ![128, 128]⟩ .f32) (bias : FVec Ideal ⟨1, ![128]⟩ .f32) (i : Fin 8192) (j : Fin 128) : EReal :=
  ((agg adj 1#32 (feat V w1) i j + agg adj 2#32 (feat V w2) i j) + agg adj 3#32 (feat V w3) i j) + bias (ix1 j)

/-- The convolution as an array. -/
def G (V : FVec Ideal ⟨2, ![8192, 128]⟩ .f32) (adj : IVec ⟨2, ![8192, 8192]⟩ 32)
    (w1 w2 w3 : FVec Ideal ⟨2, ![128, 128]⟩ .f32) (bias : FVec Ideal ⟨1, ![128]⟩ .f32) : FVec Ideal ⟨2, ![8192, 128]⟩ .f32 :=
  fun y => Gpq V adj w1 w2 w3 bias (y 0) (y 1)

theorem G_ix2 (V : FVec Ideal ⟨2, ![8192, 128]⟩ .f32) (adj : IVec ⟨2, ![8192, 8192]⟩ 32)
    (w1 w2 w3 : FVec Ideal ⟨2, ![128, 128]⟩ .f32) (bias : FVec Ideal ⟨1, ![128]⟩ .f32) (i : Fin 8192) (j : Fin 128) :
    G V adj w1 w2 w3 bias (ix2 i j) = Gpq V adj w1 w2 w3 bias i j := rfl

/-- The three weight matrices side by side: column `c` of the `128 × 384` matrix. -/
def wcat (w1 w2 w3 : FVec Ideal ⟨2, ![128, 128]⟩ .f32) : FVec Ideal ⟨2, ![128, 384]⟩ .f32 :=
  fun y => if h : (y 1).val < 128 then w1 (ix2 (y 0) ⟨(y 1).val, h⟩)
    else if h2 : (y 1).val < 256 then w2 (ix2 (y 0) ⟨(y 1).val - 128, by omega⟩)
    else w3 (ix2 (y 0) ⟨(y 1).val - 256, by have := idx2_lt1 y; omega⟩)

/-- The projected features of the three relations side by side: `V` against `wcat`. -/
def featCat (V : FVec Ideal ⟨2, ![8192, 128]⟩ .f32) (w1 w2 w3 : FVec Ideal ⟨2, ![128, 128]⟩ .f32) : FVec Ideal ⟨2, ![8192, 384]⟩ .bf16 :=
  fun y => ∑ l : Fin 128, V (ix2 (y 0) l) * wcat w1 w2 w3 (ix2 l (y 1))

theorem wcat_lo (w1 w2 w3 : FVec Ideal ⟨2, ![128, 128]⟩ .f32) (l j : Fin 128) :
    wcat w1 w2 w3 (ix2 l (⟨j.val, by omega⟩ : Fin 384)) = w1 (ix2 l j) := by
  have h : j.val < 128 := j.isLt
  simp only [wcat, dif_pos h]
theorem wcat_mid (w1 w2 w3 : FVec Ideal ⟨2, ![128, 128]⟩ .f32) (l j : Fin 128) :
    wcat w1 w2 w3 (ix2 l (⟨128 + j.val, by omega⟩ : Fin 384)) = w2 (ix2 l j) := by
  have h1 : ¬ (128 + j.val < 128) := by omega
  have h2 : 128 + j.val < 256 := by omega
  simp only [wcat, dif_neg h1, dif_pos h2]
  congr 2; exact Fin.ext (by simp)
theorem wcat_hi (w1 w2 w3 : FVec Ideal ⟨2, ![128, 128]⟩ .f32) (l j : Fin 128) :
    wcat w1 w2 w3 (ix2 l (⟨256 + j.val, by omega⟩ : Fin 384)) = w3 (ix2 l j) := by
  have h1 : ¬ (256 + j.val < 128) := by omega
  have h2 : ¬ (256 + j.val < 256) := by omega
  simp only [wcat, dif_neg h1, dif_neg h2]
  congr 2; exact Fin.ext (by simp)

/-- Column `j` of each third of the side-by-side projection is that relation's projection. -/
theorem featCat_lo (V : FVec Ideal ⟨2, ![8192, 128]⟩ .f32) (w1 w2 w3 : FVec Ideal ⟨2, ![128, 128]⟩ .f32) (k : Fin 8192) (j : Fin 128) :
    featCat V w1 w2 w3 (ix2 k (⟨j.val, by omega⟩ : Fin 384)) = feat V w1 k j :=
  Finset.sum_congr rfl fun l _ => by rw [wcat_lo]
theorem featCat_mid (V : FVec Ideal ⟨2, ![8192, 128]⟩ .f32) (w1 w2 w3 : FVec Ideal ⟨2, ![128, 128]⟩ .f32) (k : Fin 8192) (j : Fin 128) :
    featCat V w1 w2 w3 (ix2 k (⟨128 + j.val, by omega⟩ : Fin 384)) = feat V w2 k j :=
  Finset.sum_congr rfl fun l _ => by rw [wcat_mid]
theorem featCat_hi (V : FVec Ideal ⟨2, ![8192, 128]⟩ .f32) (w1 w2 w3 : FVec Ideal ⟨2, ![128, 128]⟩ .f32) (k : Fin 8192) (j : Fin 128) :
    featCat V w1 w2 w3 (ix2 k (⟨256 + j.val, by omega⟩ : Fin 384)) = feat V w3 k j :=
  Finset.sum_congr rfl fun l _ => by rw [wcat_hi]

/-- Rows against a matrix: entry `(k, c)` of the product of `A` (8192 × 128) and `B` (128 × 384). -/
def prodArr (A : FVec Ideal ⟨2, ![8192, 128]⟩ .f32) (B : FVec Ideal ⟨2, ![128, 384]⟩ .f32) : FVec Ideal ⟨2, ![8192, 384]⟩ .bf16 :=
  fun y => ∑ l : Fin 128, A (ix2 (y 0) l) * B (ix2 l (y 1))

theorem prodArr_ix2 (A : FVec Ideal ⟨2, ![8192, 128]⟩ .f32) (B : FVec Ideal ⟨2, ![128, 384]⟩ .f32) (k : Fin 8192) (c : Fin 384) :
    prodArr A B (ix2 k c) = ∑ l : Fin 128, A (ix2 k l) * B (ix2 l c) := rfl

/-- The side-by-side projection is the product against the side-by-side weights. -/
theorem featCat_eq (V : FVec Ideal ⟨2, ![8192, 128]⟩ .f32) (w1 w2 w3 : FVec Ideal ⟨2, ![128, 128]⟩ .f32) :
    featCat V w1 w2 w3 = prodArr V (wcat w1 w2 w3) := rfl

/-- The aggregation of a side-by-side array `x` (8192 × 384): node `i` sums, for each relation, the rows of that
    relation's third of `x` over the nodes the relation's mask selects, the three sums added in order, then the bias row. -/
def aggArr (a : IVec ⟨2, ![8192, 8192]⟩ 32) (x : FVec Ideal ⟨2, ![8192, 384]⟩ .bf16) (b : FVec Ideal ⟨2, ![1, 128]⟩ .f32) :
    FVec Ideal ⟨2, ![8192, 128]⟩ .f32 :=
  fun y => (((∑ k : Fin 8192, msk 1#32 (a (ix2 (y 0) k)) * x (ix2 k (⟨(y 1).val, by have := idx2_lt1 y; omega⟩ : Fin 384)))
      + (∑ k : Fin 8192, msk 2#32 (a (ix2 (y 0) k)) * x (ix2 k (⟨128 + (y 1).val, by have := idx2_lt1 y; omega⟩ : Fin 384))))
      + (∑ k : Fin 8192, msk 3#32 (a (ix2 (y 0) k)) * x (ix2 k (⟨256 + (y 1).val, by have := idx2_lt1 y; omega⟩ : Fin 384))))
    + b (ix2 (0 : Fin 1) (y 1))

theorem aggArr_ix2 (a : IVec ⟨2, ![8192, 8192]⟩ 32) (x : FVec Ideal ⟨2, ![8192, 384]⟩ .bf16) (b : FVec Ideal ⟨2, ![1, 128]⟩ .f32)
    (i : Fin 8192) (j : Fin 128) :
    aggArr a x b (ix2 i j)
      = (((∑ k : Fin 8192, msk 1#32 (a (ix2 i k)) * x (ix2 k (⟨j.val, by omega⟩ : Fin 384)))
          + (∑ k : Fin 8192, msk 2#32 (a (ix2 i k)) * x (ix2 k (⟨128 + j.val, by omega⟩ : Fin 384))))
          + (∑ k : Fin 8192, msk 3#32 (a (ix2 i k)) * x (ix2 k (⟨256 + j.val, by omega⟩ : Fin 384))))
        + b (ix2 (0 : Fin 1) j) := rfl

/-- Aggregating the side-by-side projection, with the bias laid as a row, is the convolution. -/
theorem aggArr_featCat (V : FVec Ideal ⟨2, ![8192, 128]⟩ .f32) (adj : IVec ⟨2, ![8192, 8192]⟩ 32)
    (w1 w2 w3 : FVec Ideal ⟨2, ![128, 128]⟩ .f32) (bias : FVec Ideal ⟨1, ![128]⟩ .f32) (b2 : FVec Ideal ⟨2, ![1, 128]⟩ .f32)
    (hb : ∀ j : Fin 128, b2 (ix2 (0 : Fin 1) j) = bias (ix1 j)) :
    aggArr adj (featCat V w1 w2 w3) b2 = G V adj w1 w2 w3 bias := by
  funext y
  obtain ⟨i, j, rfl⟩ : ∃ (i : Fin 8192) (j : Fin 128), y = ix2 i j := ⟨y 0, y 1, eq_ix2 y⟩
  rw [aggArr_ix2, G_ix2, hb]
  simp only [featCat_lo, featCat_mid, featCat_hi]
  rfl

end Cert.GConv

end
-- ==== Proof.KernelIdeal.Value0.lean ====
import proofs.«142277_g24739011625684_cont_8to1_1532_25_alg».proof.Proof.KernelIdeal.Region0
import proofs.«142277_g24739011625684_cont_8to1_1532_25_alg».proof.Proof.Pay0
import proofs.«142277_g24739011625684_cont_8to1_1532_25_alg».proof.Proof.Spec
import Idealize.ShloMosaic.Lib.Pipeline.Value
import Idealize.ShloMosaic.Lib.ValueIdx

/-
  What the projection region leaves in its output array, over the extended reals.

  The region's grid has 8 points. Point `t` reads rows `1024 t … 1024 t + 1023` of the 8192 × 128 feature array and the
  whole 128 × 384 array of the three weight matrices laid side by side, and writes back rows `1024 t … 1024 t + 1023` of
  the 8192 × 384 output: entry `(r, q)` of its block is row `r` of the feature block against column `q` of the
  weights, which is entry `(1024 t + r, q)` of the product of the two arrays. So every point writes back its block of
  ONE array, the product; the 8 blocks of 1024 rows tile the output (row `i` falls to point `i / 1024`); hence the
  output array ends holding the product.
-/

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offsets of a whole-buffer rectangle, spelt as the constant function. -/
theorem hz : (![0, 0] : Fin 2 → Nat) = fun _ => 0 := funext fun a => by fin_cases a <;> rfl

/-- The three windows' block indices at every point of the grid: the feature rows and the output move with the point
    along the rows and stay at column block 0; the weights stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature array and the side-by-side weight array as the region finds them, and the two input blocks at a point. -/
abbrev featArr (c : Dev nD) : FVec Ideal S8192x128 .f32 := V c main_arg0
abbrev wArr (c : Dev nD) : FVec Ideal S128x384 .f32 := V c main_v0
abbrev rowsBlk (c : Dev nD) (t : Fin cfg0.N) : FVec Ideal S1024x128 .f32 := iblk0 V c 0 t
abbrev wBlk (c : Dev nD) (t : Fin cfg0.N) : FVec Ideal S128x384 .f32 := iblk0 V c 1 t

/-- Entry `(r, l)` of the feature block at point `t` is entry `(1024 t + r, l)` of the feature array. -/
theorem rowsBlk_apply (c : Dev nD) (t : Fin cfg0.N) (r : Fin 1024) (l : Fin 128) (i : Fin 8192)
    (hi : i.val = t.val * 1024 + r.val) :
    rowsBlk V c t (ix2 r l) = featArr V c (ix2 i l) := by
  obtain ⟨e0, e1, -⟩ := idx_facts t
  show featArr V c (((cfg0.win 0).blk t).view.emb (ix2 r l)) = featArr V c (ix2 i l)
  refine congrArg (featArr V c) (funext fun a => Fin.ext ?_)
  match a with
  | ⟨0, _⟩ => show win0_0.index t (0 : Fin 2) * 1024 + 1 * r.val = i.val; omega
  | ⟨1, _⟩ => show win0_0.index t (1 : Fin 2) * 128 + 1 * l.val = l.val; omega

/-- The weight block at every point is the whole weight array. -/
theorem wBlk_apply (c : Dev nD) (t : Fin cfg0.N) (l : Fin 128) (q : Fin 384) :
    wBlk V c t (ix2 l q) = wArr V c (ix2 l q) := by
  obtain ⟨-, -, e2, e3, -⟩ := idx_facts t
  show wArr V c (((cfg0.win 1).blk t).view.emb (ix2 l q)) = wArr V c (ix2 l q)
  refine congrArg (wArr V c) (funext fun a => Fin.ext ?_)
  match a with
  | ⟨0, _⟩ => show win0_1.index t (0 : Fin 2) * 128 + 1 * l.val = l.val; omega
  | ⟨1, _⟩ => show win0_1.index t (1 : Fin 2) * 384 + 1 * q.val = q.val; omega

/-- What point `t` writes back is its block of the product of the feature array and the weight array. -/
theorem flushed_eq (c : Dev nD) (t : Fin cfg0.N) :
    (dat0 V c).flushed 2 t = ((cfg0.win 2).blk t).view.read (Elt Ideal) (Cert.GConv.prodArr (V c main_arg0) (V c main_v0)) := by
  show (cfg0.win 2).cut (grid0.coords t) ((dat0 V c).after 2 t) = _
  rw [after0_2]
  unfold out0_2
  rw [View.canon_unit_zero hz]
  simp only [View.ld_unit_zero (S := S1024x128) hz, View.ld_unit_zero (S := S128x384) hz]
  funext j
  obtain ⟨r, q, rfl⟩ : ∃ (r : Fin 1024) (q : Fin 384), j = ix2 r q := ⟨j 0, j 1, eq_ix2 j⟩
  refine (Cert.KernelIdeal.Pay.pay0_apply (rowsBlk V c t) (wBlk V c t) r q).trans ?_
  obtain ⟨-, -, -, -, e4, e5⟩ := idx_facts t
  have ht : t.val < 8 := t.isLt
  have hr : r.val < 1024 := r.isLt
  show _ = Cert.GConv.prodArr (V c main_arg0) (V c main_v0) (((cfg0.win 2).blk t).view.emb (ix2 r q))
  have he : ((cfg0.win 2).blk t).view.emb (ix2 r q) = ix2 (⟨t.val * 1024 + r.val, by omega⟩ : Fin 8192) q :=
    funext fun a => Fin.ext (by
      match a with
      | ⟨0, _⟩ => show win0_2.index t (0 : Fin 2) * 1024 + 1 * r.val = t.val * 1024 + r.val; omega
      | ⟨1, _⟩ => show win0_2.index t (1 : Fin 2) * 384 + 1 * q.val = q.val; omega)
  rw [he, Cert.GConv.prodArr_ix2]
  exact Finset.sum_congr rfl fun l _ => by rw [rowsBlk_apply V c t r l ⟨t.val * 1024 + r.val, by omega⟩ rfl, wBlk_apply]

/-- An index of the output array is in point `t`'s block iff each coordinate is in the block's range on its axis. -/
theorem mem_blk (t : Fin cfg0.N) (i : S8192x384.Idx) :
    i ∈ ((cfg0.win 2).blk t).view.set ↔ ∀ a : Fin 2, win0_2.index t a * S1024x384.size a ≤ (i a).val ∧ (i a).val < win0_2.index t a * S1024x384.size a + S1024x384.size a := by
  show i ∈ ((View.whole main_v1).slice (win0_2.rect t)).set ↔ _
  rw [View.set_slice_whole, Rect.mem_set_unit]
  exact Iff.rfl

/-- Every index of the output array is in the block of the point its row falls to. -/
theorem cover (i : S8192x384.Idx) :
    ∃ t : Fin cfg0.N, (cfg0.win 2).flush t = true ∧ i ∈ ((cfg0.win 2).blk t).view.set := by
  have hi0 : (i 0).val < 8192 := (i 0).isLt
  have hi1 : (i 1).val < 384 := (i 1).isLt
  refine ⟨⟨(i 0).val / 1024, by show (i 0).val / 1024 < 8; omega⟩, flush0_2 _, ?_⟩
  rw [mem_blk]
  obtain ⟨-, -, -, -, e4, e5⟩ := idx_facts ⟨(i 0).val / 1024, by show (i 0).val / 1024 < 8; omega⟩
  intro a
  match a with
  | ⟨0, _⟩ => show win0_2.index _ (0 : Fin 2) * 1024 ≤ (i 0).val ∧ (i 0).val < win0_2.index _ (0 : Fin 2) * 1024 + 1024; rw [e4]; show (i 0).val / 1024 * 1024 ≤ (i 0).val ∧ (i 0).val < (i 0).val / 1024 * 1024 + 1024; omega
  | ⟨1, _⟩ => show win0_2.index _ (1 : Fin 2) * 384 ≤ (i 1).val ∧ (i 1).val < win0_2.index _ (1 : Fin 2) * 384 + 384; rw [e5]; omega

/-- The projection region's output array after its write-backs: the feature array against the side-by-side weights. -/
theorem final0 (c : Dev nD) :
    (Cert.KernelIdeal.Fr.dat0 V c).arrAt 2 cfg0.N = Cert.GConv.prodArr (V c main_arg0) (V c main_v0) :=
  (dat0 V c).arrAt_eq_of_cover 2 (Cert.GConv.prodArr (V c main_arg0) (V c main_v0)) (fun t _ => flushed_eq V c t) cover

end Cert.KernelIdeal.Val

end
-- ==== Proof.Pay.lean ====
/-
  The second kernel body's arithmetic read at an entry, at the ideal values, and the two host operations of the program
  read at an entry. (The first body's product is read at an entry in the module imported beside this one.)

  The second body builds, for each relation c = 1, 2, 3, the 0/1 mask of the adjacency block
  (the one-bit comparison widened to a word and converted to a float: the bit read as a natural number), multiplies each
  mask by its third of the projected features (columns j, 128 + j, 256 + j), adds the three products in the order
  1, 2, 3 and then the bias row laid along every row.
-/
import proofs.«142277_g24739011625684_cont_8to1_1532_25_alg».proof.Proof.Gen.KernelIdeal.Skeleton
import proofs.«142277_g24739011625684_cont_8to1_1532_25_alg».proof.Proof.Spec
import proofs.«142277_g24739011625684_cont_8to1_1532_25_alg».proof.Proof.LibDot
import proofs.«142277_g24739011625684_cont_8to1_1532_25_alg».proof.Proof.Pay0
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

open scoped BigOperators

namespace Cert.KernelIdeal.Pay

open Cert.KernelIdeal Cert.KernelIdeal.Gen Cert.GConv Idealize.ShloMosaic Idealize.ShloMosaic.ValueIdx

variable [Cert.KernelIdeal.Facts]

/-! ## The second body -/

/-- The second body's dimension record is the plain 512 × 8192 by 8192 × 128 product. -/
theorem dot1_eq : dot_S512x8192_S8192x128_S512x128_1_0_0_1_n_n = DotDims.plain 512 8192 128 := rfl

/-- The mask of relation `c` as the body builds it — compare with the splat of `c`, widen the bit to a word, convert the
    word to a float — is, at an entry, the comparison bit read as a natural number. -/
theorem mask_apply (a : IVec S512x8192 32) (c : BitVec 32) (h : 1 < 32) (r : Fin 512) (k : Fin 8192) :
    (sitofp .f32 (extui 32 (cmpi .eq a (broadcast S512x8192 c)) h) : FVec Ideal S512x8192 .f32) (ix2 r k)
      = msk c (a (ix2 r k)) := by
  show ((((IntOp.cmpi .eq (a (ix2 r k)) c).setWidth 32).toInt : ℝ) : EReal) = (((IntOp.cmpi .eq (a (ix2 r k)) c).toNat : ℝ) : EReal)
  rw [toInt_setWidth_bit]
  norm_cast

/-- A 128-column slice of the projected features at column offset `off` reads column `off + j`. -/
theorem slice_apply (x : FVec Ideal S8192x384 .bf16) (off : Nat) (h : S8192x384.Slices ![0, off] S8192x128)
    (k : Fin 8192) (j : Fin 128) (q : Fin 384) (hq : q.val = off + j.val) :
    extractStridedSlice S8192x128 ![0, off] x h (ix2 k j) = x (ix2 k q) :=
  extractStridedSlice_apply ![0, off] x h (ix2 k j) (ix2 k q) fun ax =>
    match ax with
    | ⟨0, _⟩ => by show k.val = 0 + k.val; omega
    | ⟨1, _⟩ => by show q.val = off + j.val; exact hq

/-- One relation's aggregate as the body computes it: the mask against its slice of the projected features, into the
    zero accumulator, at entry (r, j). -/
theorem branch_apply (a : IVec S512x8192 32) (x : FVec Ideal S8192x384 .bf16) (c : BitVec 32) (h1 : 1 < 32) (off : Nat)
    (h : S8192x384.Slices ![0, off] S8192x128) (r : Fin 512) (j : Fin 128) (q : Fin 384) (hq : q.val = off + j.val) :
    FloatOps.matmul dot_S512x8192_S8192x128_S512x128_1_0_0_1_n_n none
        (sitofp .f32 (extui 32 (cmpi .eq a (broadcast S512x8192 c)) h1) : FVec Ideal S512x8192 .f32)
        (extractStridedSlice S8192x128 ![0, off] x h) (constant S512x128 .f32 0x00000000#32) (ix2 r j)
      = ∑ k : Fin 8192, msk c (a (ix2 r k)) * x (ix2 k q) := by
  rw [dot1_eq]
  refine (Cert.GNN.matmul_plain_zero_apply none _ _ r j).trans ?_
  refine Finset.sum_congr rfl fun k _ => ?_
  rw [mask_apply a c h1 r k, slice_apply x off h k j q hq]

/-- The second body's stored value at entry (r, j): the three relations' aggregates of the three thirds of the projected
    features, added in the order 1, 2, 3, then the bias of column j. -/
theorem pay1_apply (a : IVec S512x8192 32) (x : FVec Ideal S8192x384 .bf16) (b : FVec Ideal S1x128 .f32) (r : Fin 512) (j : Fin 128) :
    k1_pay1 (F := Ideal) a x b (ix2 r j)
      = (((∑ k : Fin 8192, msk 1#32 (a (ix2 r k)) * x (ix2 k (⟨j.val, by omega⟩ : Fin 384)))
          + (∑ k : Fin 8192, msk 2#32 (a (ix2 r k)) * x (ix2 k (⟨128 + j.val, by omega⟩ : Fin 384))))
          + (∑ k : Fin 8192, msk 3#32 (a (ix2 r k)) * x (ix2 k (⟨256 + j.val, by omega⟩ : Fin 384))))
        + b (ix2 (0 : Fin 1) j) := by
  show ((FloatOps.matmul dot_S512x8192_S8192x128_S512x128_1_0_0_1_n_n none
            (sitofp .f32 (extui 32 (cmpi .eq a (broadcast S512x8192 1#32)) Facts₀.natLt_1_32) : FVec Ideal S512x8192 .f32)
            (extractStridedSlice S8192x128 ![0, 0] (shapeCast S8192x384 x Facts₀.shapeCasts_S8192x384_S8192x384)
              Facts₀.slices_S8192x384_o0_0_S8192x128) (constant S512x128 .f32 0x00000000#32) (ix2 r j)
        + FloatOps.matmul dot_S512x8192_S8192x128_S512x128_1_0_0_1_n_n none
            (sitofp .f32 (extui 32 (cmpi .eq a (broadcast S512x8192 2#32)) Facts₀.natLt_1_32) : FVec Ideal S512x8192 .f32)
            (extractStridedSlice S8192x128 ![0, 128] (shapeCast S8192x384 x Facts₀.shapeCasts_S8192x384_S8192x384)
              Facts₀.slices_S8192x384_o0_128_S8192x128) (constant S512x128 .f32 0x00000000#32) (ix2 r j))
        + FloatOps.matmul dot_S512x8192_S8192x128_S512x128_1_0_0_1_n_n none
            (sitofp .f32 (extui 32 (cmpi .eq a (broadcast S512x8192 3#32)) Facts₀.natLt_1_32) : FVec Ideal S512x8192 .f32)
            (extractStridedSlice S8192x128 ![0, 256] (shapeCast S8192x384 x Facts₀.shapeCasts_S8192x384_S8192x384)
              Facts₀.slices_S8192x384_o0_256_S8192x128) (constant S512x128 .f32 0x00000000#32) (ix2 r j))
      + broadcastTo S512x128 (shapeCast S1x128 b Facts₀.shapeCasts_S1x128_S1x128) Facts₀.broadcasts_S1x128_S512x128 (ix2 r j) = _
  rw [shapeCast_self, shapeCast_self, broadcastTo_1b_ab_apply,
    branch_apply a x 1#32 _ 0 _ r j ⟨j.val, by omega⟩ (by simp),
    branch_apply a x 2#32 _ 128 _ r j ⟨128 + j.val, by omega⟩ rfl,
    branch_apply a x 3#32 _ 256 _ r j ⟨256 + j.val, by omega⟩ rfl]

/-! ## The two host operations -/

/-- The bias vector viewed as a one-row matrix reads, at (0, j), the vector at j. -/
theorem reshape_bias (b : FVec Ideal S128 .f32) (j : Fin 128) :
    shapeCast S1x128 b Facts₀.shapeCasts_S128_S1x128 (ix2 (0 : Fin 1) j) = b (ix1 j) :=
  shapeCast_a_1a_apply b Facts₀.shapeCasts_S128_S1x128 0 j

/-- The three weight matrices laid side by side along the columns, as the host operation writes them, is the
    side-by-side matrix of the specification: column q falls in the first, second or third matrix as q is below 128,
    below 256, or not, at column q, q − 128 or q − 256 of it. -/
theorem concat_eq (w1 w2 w3 : FVec Ideal S128x128 .f32) :
    concatenate S128x384 1 [⟨S128x128, w1⟩, ⟨S128x128, w2⟩, ⟨S128x128, w3⟩]
      Facts₀.concatenates_S128x128_S128x128_S128x128_S128x384_d1 = wcat w1 w2 w3 := by
  funext y
  obtain ⟨l, q, rfl⟩ : ∃ (l : Fin 128) (q : Fin 384), y = ix2 l q := ⟨y 0, y 1, eq_ix2 y⟩
  have hq : q.val < 384 := q.isLt
  by_cases h1 : q.val < 128
  · have hw : wcat w1 w2 w3 (ix2 l q) = w1 (ix2 l ⟨q.val, h1⟩) := by simp only [wcat, dif_pos h1]
    rw [hw]
    exact concatenate_apply_piece 1 _ _ (ix2 l q) 0 (by show 0 < 3; omega) S128x128 w1 rfl rfl 0 rfl (ix2 l ⟨q.val, h1⟩)
      (fun b => match b with | ⟨0, _⟩ => fun _ => rfl | ⟨1, _⟩ => fun hb => absurd rfl hb)
      (by show 0 + q.val = q.val; omega)
  · by_cases h2 : q.val < 256
    · have hw : wcat w1 w2 w3 (ix2 l q) = w2 (ix2 l ⟨q.val - 128, by omega⟩) := by simp only [wcat, dif_neg h1, dif_pos h2]
      rw [hw]
      exact concatenate_apply_piece 1 _ _ (ix2 l q) 1 (by show 1 < 3; omega) S128x128 w2 rfl rfl 128 rfl (ix2 l ⟨q.val - 128, by omega⟩)
        (fun b => match b with | ⟨0, _⟩ => fun _ => rfl | ⟨1, _⟩ => fun hb => absurd rfl hb)
        (by show 128 + (q.val - 128) = q.val; omega)
    · have hw : wcat w1 w2 w3 (ix2 l q) = w3 (ix2 l ⟨q.val - 256, by omega⟩) := by simp only [wcat, dif_neg h1, dif_neg h2]
      rw [hw]
      exact concatenate_apply_piece 1 _ _ (ix2 l q) 2 (by show 2 < 3; omega) S128x128 w3 rfl rfl 256 rfl (ix2 l ⟨q.val - 256, by omega⟩)
        (fun b => match b with | ⟨0, _⟩ => fun _ => rfl | ⟨1, _⟩ => fun hb => absurd rfl hb)
        (by show 256 + (q.val - 256) = q.val; omega)

end Cert.KernelIdeal.Pay

end
-- ==== Proof.KernelIdeal.Value1.lean ====
/-
  The aggregation region's output array after its write-backs, as one function of the arrays the region finds.

  The grid has sixteen points. Point `t` takes rows `512 t … 512 t + 511` of the adjacency array (block row `t`,
  block column 0, a 512 × 8192 block), the whole array of projected features and the whole bias row (block (0, 0) of
  each), and writes back rows `512 t … 512 t + 511` of the output (block row `t`, block column 0, a 512 × 128 block).
  Entry (r, q) of what point `t` writes is the three masked sums of row `512 t + r` of the adjacency array against
  columns `q`, `128 + q`, `256 + q` of the projected features, added in order, then the bias of column `q`: entry
  `(512 t + r, q)` of the aggregation of the whole arrays. Row `i` of the output lies in the block of point `i / 512`,
  so the sixteen blocks cover the array and it ends holding the aggregation.
-/
import proofs.«142277_g24739011625684_cont_8to1_1532_25_alg».proof.Proof.KernelIdeal.Region1
import proofs.«142277_g24739011625684_cont_8to1_1532_25_alg».proof.Proof.Spec
import proofs.«142277_g24739011625684_cont_8to1_1532_25_alg».proof.Proof.Pay
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Fr Cert.GConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the sixteen points: the adjacency rows' window and the output window sit at block
    row `t`, block column 0; the projected features' and the bias row's windows sit at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The adjacency rows' block at point `t` is rows `512 t … 512 t + 511` of the adjacency array. -/
theorem adj_block_apply (c : Dev nD) (t : Fin cfg1.N) (y : S512x8192.Idx) (i : S8192x8192.Idx)
    (h0 : (i 0).val = 512 * t.val + (y 0).val) (h1 : (i 1).val = (y 1).val) :
    (iblk1 V c 0 t : Vec Ideal S512x8192 .i32) y = (V c main_arg1 : S8192x8192.Idx → BitVec 32) i := by
  obtain ⟨e0, e1, -⟩ := block_indices t
  unfold iblk1
  rw [View.read_apply]
  show V c main_arg1 _ = V c main_arg1 _
  congr 1
  funext a
  apply Fin.ext
  match a with
  | ⟨0, _⟩ => show win1_0.index t (0 : Fin 2) * 512 + 1 * (y 0).val = (i 0).val; rw [e0, h0]; omega
  | ⟨1, _⟩ => show win1_0.index t (1 : Fin 2) * 8192 + 1 * (y 1).val = (i 1).val; rw [e1, h1]; omega

/-- The projected features' block is, at every point, the whole array. -/
theorem feat_block_apply (c : Dev nD) (t : Fin cfg1.N) (y : S8192x384.Idx) :
    (iblk1 V c 1 t : Vec Ideal S8192x384 .bf16) y = (V c main_v1 : S8192x384.Idx → EReal) y := by
  obtain ⟨-, -, e0, e1, -⟩ := block_indices t
  unfold iblk1
  rw [View.read_apply]
  show V c main_v1 _ = V c main_v1 _
  congr 1
  funext a
  apply Fin.ext
  match a with
  | ⟨0, _⟩ => show win1_1.index t (0 : Fin 2) * 8192 + 1 * (y 0).val = (y 0).val; rw [e0]; omega
  | ⟨1, _⟩ => show win1_1.index t (1 : Fin 2) * 384 + 1 * (y 1).val = (y 1).val; rw [e1]; omega

/-- The bias row's block is, at every point, the whole row. -/
theorem bias_block_apply (c : Dev nD) (t : Fin cfg1.N) (y : S1x128.Idx) :
    (iblk1 V c 2 t : Vec Ideal S1x128 .f32) y = (V c main_v2 : S1x128.Idx → EReal) y := by
  obtain ⟨-, -, -, -, e0, e1, -⟩ := block_indices t
  unfold iblk1
  rw [View.read_apply]
  show V c main_v2 _ = V c main_v2 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- An index of the output array is in point `t`'s block iff each coordinate is in the block's range on its axis. -/
theorem mem_out_block (t : Fin cfg1.N) (i : S8192x128.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v3).slice (win1_3.rect t)).set ↔ _
  rw [View.set_slice_whole, Rect.mem_set_unit]
  exact Iff.rfl

/-- Row `i` of the output array is written back by point `i / 512`. -/
theorem out_cover (i : S8192x128.Idx) :
    ∃ t : Fin cfg1.N, (cfg1.win 3).flush t = true ∧ i ∈ ((cfg1.win 3).blk t).view.set := by
  have hi0 : (i 0).val < 8192 := idx2_lt0 i
  have hi1 : (i 1).val < 128 := idx2_lt1 i
  have hN : cfg1.N = 16 := N_1
  have ht : (i 0).val / 512 < cfg1.N := by rw [hN]; omega
  obtain ⟨-, -, -, -, -, -, e0, e1⟩ := block_indices ⟨(i 0).val / 512, ht⟩
  refine ⟨⟨(i 0).val / 512, ht⟩, flush1_3 _, ?_⟩
  rw [mem_out_block]
  intro a
  match a with
  | ⟨0, _⟩ =>
    show win1_3.index ⟨(i 0).val / 512, ht⟩ (0 : Fin 2) * 512 ≤ (i 0).val ∧ (i 0).val < win1_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win1_3.index ⟨(i 0).val / 512, ht⟩ (1 : Fin 2) * 128 ≤ (i 1).val ∧ (i 1).val < win1_3.index ⟨(i 0).val / 512, ht⟩ (1 : Fin 2) * 128 + 128
    rw [e1]; omega

/-- WHAT POINT `t` WRITES BACK is block `t` of the aggregation of the arrays as the region finds them. -/
theorem flushed_out_eq (c : Dev nD) (t : Fin cfg1.N) :
    (dat1 V c).flushed 3 t = ((cfg1.win 3).blk t).view.read (Elt Ideal)
      (aggArr (V c main_arg1 : S8192x8192.Idx → BitVec 32) (V c main_v1 : S8192x384.Idx → EReal) (V c main_v2 : S1x128.Idx → EReal)) := by
  show (cfg1.win 3).cut (grid1.coords t) ((dat1 V c).after 3 t) = _
  rw [after1_3]
  unfold out1_3
  rw [View.canon_unit_zero zero_offsets]
  simp only [View.ld_unit_zero (S := S512x8192) zero_offsets, View.ld_unit_zero (S := S8192x384) zero_offsets,
    View.ld_unit_zero (S := S1x128) zero_offsets]
  obtain ⟨-, -, -, -, -, -, e0, e1⟩ := block_indices t
  have ht : t.val < 16 := lt_of_lt_of_eq t.isLt N_1
  funext j
  obtain ⟨r, q, rfl⟩ : ∃ (r : Fin 512) (q : Fin 128), j = ix2 r q := ⟨j 0, j 1, eq_ix2 j⟩
  have hlt : 512 * t.val + r.val < 8192 := by have := r.isLt; omega
  refine (Cert.KernelIdeal.Pay.pay1_apply (iblk1 V c 0 t) (iblk1 V c 1 t) (iblk1 V c 2 t) r q).trans ?_
  rw [View.read_apply]
  show _ = aggArr (V c main_arg1 : S8192x8192.Idx → BitVec 32) (V c main_v1 : S8192x384.Idx → EReal) (V c main_v2 : S1x128.Idx → EReal)
    (((cfg1.win 3).blk t).view.emb (ix2 r q))
  -- the block's entry (r, q) sits in the array at row 512 t + r, column q
  have hi : ((cfg1.win 3).blk t).view.emb (ix2 r q) = (ix2 (⟨512 * t.val + r.val, hlt⟩ : Fin 8192) q : S8192x128.Idx) := by
    funext a; apply Fin.ext
    match a with
    | ⟨0, _⟩ => show win1_3.index t (0 : Fin 2) * 512 + 1 * r.val = 512 * t.val + r.val; rw [e0]; omega
    | ⟨1, _⟩ => show win1_3.index t (1 : Fin 2) * 128 + 1 * q.val = q.val; rw [e1]; omega
  rw [hi, aggArr_ix2]
  have hrow : ∀ k : Fin 8192, (iblk1 V c 0 t : Vec Ideal S512x8192 .i32) (ix2 r k)
      = (V c main_arg1 : S8192x8192.Idx → BitVec 32) (ix2 (⟨512 * t.val + r.val, hlt⟩ : Fin 8192) k) :=
    fun k => adj_block_apply V c t (ix2 r k) (ix2 (⟨512 * t.val + r.val, hlt⟩ : Fin 8192) k) rfl rfl
  simp only [hrow, feat_block_apply V c t, bias_block_apply V c t]

/-- THE OUTPUT ARRAY after the region's write-backs is the aggregation of the arrays as the region finds them. -/
theorem final1 (c : Dev nD) :
    (dat1 V c).arrAt 3 cfg1.N
      = aggArr (V c main_arg1 : S8192x8192.Idx → BitVec 32) (V c main_v1 : S8192x384.Idx → EReal) (V c main_v2 : S1x128.Idx → EReal) :=
  (dat1 V c).arrAt_eq_of_cover 3 _ (fun t _ => flushed_out_eq V c t) out_cover

end Cert.KernelIdeal.Val

end
-- ==== Proof.KernelIdeal.ValueRun.lean ====
/-
  The idealized kernel's result array, read back to the launch arrays.

  At the projection's entry the side-by-side weight array is the three weight matrices laid side by side, so the
  projection leaves the side-by-side projection of the features; the bias row at the aggregation's entry is the bias
  vector as one row; the aggregation of those, read with the adjacency array as launched, is the convolution.
-/
import proofs.«142277_g24739011625684_cont_8to1_1532_25_alg».proof.Proof.KernelIdeal.Run
import proofs.«142277_g24739011625684_cont_8to1_1532_25_alg».proof.Proof.KernelIdeal.Value0
import proofs.«142277_g24739011625684_cont_8to1_1532_25_alg».proof.Proof.KernelIdeal.Value1
import proofs.«142277_g24739011625684_cont_8to1_1532_25_alg».proof.Proof.Pay
import proofs.«142277_g24739011625684_cont_8to1_1532_25_alg».proof.Proof.Spec
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen Cert.KernelIdeal.Fr Cert.GConv
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- At the projection's entry the side-by-side weight array holds the three weight matrices laid side by side. -/
theorem V1_main_v0 (c : Dev nD) :
    (V1 m ρ c main_v0 : S128x384.Idx → EReal)
      = wcat (m ((c : Thread nD τ).loc main_arg2)) (m ((c : Thread nD τ).loc main_arg3)) (m ((c : Thread nD τ).loc main_arg4)) := by
  refine Eq.trans ?_ (Pay.concat_eq _ _ _)
  show StableHlo.after hostOps0 (W0 m ρ c) (Proc.devRef .tc main_v0) = _
  after_results
  rfl

/-- At the aggregation's entry the bias row holds the bias vector laid as one row. -/
theorem V3_main_v2 (c : Dev nD) (j : Fin 128) :
    (V3 m ρ c main_v2 : S1x128.Idx → EReal) (ix2 (0 : Fin 1) j) = m ((c : Thread nD τ).loc main_arg5) (ix1 j) := by
  have e : (V3 m ρ c main_v2 : S1x128.Idx → EReal)
      = shapeCast S1x128 (W2 m ρ c (Proc.devRef .tc main_arg5) : S128.Idx → EReal) Facts₀.shapeCasts_S128_S1x128 := by
    show StableHlo.after hostOps1 (W2 m ρ c) (Proc.devRef .tc main_v2) = _
    after_results
    rfl
  rw [e, W2_main_arg5 m ρ c]
  exact Pay.reshape_bias _ j

/-- At the aggregation's entry the projected features are the side-by-side projection of the launch arrays. -/
theorem V3_main_v1 (c : Dev nD) :
    (V3 m ρ c main_v1 : S8192x384.Idx → EReal)
      = featCat (m ((c : Thread nD τ).loc main_arg0)) (m ((c : Thread nD τ).loc main_arg2)) (m ((c : Thread nD τ).loc main_arg3)) (m ((c : Thread nD τ).loc main_arg4)) := by
  refine (W3_main_v1 m ρ c).trans ((final0 (V1 m ρ) c).trans ?_)
  rw [featCat_eq, ← V1_main_v0 m ρ c]
  exact congrArg (fun a => prodArr a (V1 m ρ c main_v0)) (W1_main_arg0 m ρ c)

/-- What the aggregation's write-backs leave in the result array is the convolution of the launch arrays. -/
theorem result (c : Dev nD) :
    (dat1 (V3 m ρ) c).arrAt 3 cfg1.N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (final1 (V3 m ρ) c).trans ?_
  have e1 : V3 m ρ c main_arg1 = m ((c : Thread nD τ).loc main_arg1) := W3_main_arg1 m ρ c
  rw [e1, V3_main_v1 m ρ c]
  exact aggArr_featCat _ _ _ _ _ _ _ (V3_main_v2 m ρ c)

/-- Every weakly fair execution ends with the result array at the convolution of the launch arrays and the arguments
    as launched. -/
theorem run : θ_run defs (onTc (τ := τ) (main (F := Ideal))) ⟨m, fun _ => 0, ρ⟩ (fun r => ∀ c : Dev nD,
      r.2.mem ((c.tc : Thread nD τ).loc main_v3)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (run_named m ρ)

end Cert.KernelIdeal.Val

end
-- ==== Proof.RefValue.lean ====
import proofs.«142277_g24739011625684_cont_8to1_1532_25_alg».proof.Proof.Gen.ReferenceIdeal.Read
import proofs.«142277_g24739011625684_cont_8to1_1532_25_alg».proof.Proof.Spec
import Idealize.ShloMosaic.Lib.ValueIdx
import Idealize.ShloMosaic.PureOps.Ideal.Laws

/-
  The reference program's result, over the extended reals, is the graph convolution of the specification.

  The reference builds, for each relation `c = 1, 2, 3`, the 0/1 mask of the adjacency entries equal to `c`, projects the
  features by that relation's weights, multiplies the mask against the projection, adds the three products in the order
  1, 2, 3 and adds the bias row to every row. Over the extended reals each product at an entry is the plain sum over
  the shared axis, so entry `(i, j)` of the reference's result is, term by term, the specification's `Gpq … i j`: the
  same sums, in the same order of additions.
-/

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.Read Cert.GConv

/-- The mask of relation 1 at an entry: the comparison against the broadcast constant, read as a number. -/
theorem mask1_apply (adj : IVec S8192x8192 32) (i : S8192x8192.Idx) :
    val_main_v2 (F := Ideal) adj i = msk 1#32 (adj i) := by
  rw [val_main_v2_apply, val_main_v1_apply, val_main_v0_apply, val_main_c_apply]; rfl
/-- The mask of relation 2 at an entry. -/
theorem mask2_apply (adj : IVec S8192x8192 32) (i : S8192x8192.Idx) :
    val_main_v5 (F := Ideal) adj i = msk 2#32 (adj i) := by
  rw [val_main_v5_apply, val_main_v4_apply, val_main_v3_apply, val_main_c_0_apply]; rfl
/-- The mask of relation 3 at an entry. -/
theorem mask3_apply (adj : IVec S8192x8192 32) (i : S8192x8192.Idx) :
    val_main_v8 (F := Ideal) adj i = msk 3#32 (adj i) := by
  rw [val_main_v8_apply, val_main_v7_apply, val_main_v6_apply, val_main_c_1_apply]; rfl

/-- The first relation's projected features at `(k, j)`. -/
theorem proj1_apply (V : FVec Ideal S8192x128 .f32) (w : FVec Ideal S128x128 .f32) (k : Fin 8192) (j : Fin 128) :
    val_main_v9 (F := Ideal) V w (ix2 k j) = feat V w k j := by
  rw [val_main_v9_apply]
  unfold feat
  refine Finset.sum_congr rfl fun l _ => ?_
  have el : lidx_main_v9 (ix2 k j) l = ix2 k l := funext fun a => match a with | ⟨0, _⟩ => rfl | ⟨1, _⟩ => rfl
  have er : ridx_main_v9 (ix2 k j) l = ix2 l j := funext fun a => match a with | ⟨0, _⟩ => rfl | ⟨1, _⟩ => rfl
  rw [el, er]
/-- The second relation's projected features at `(k, j)`. -/
theorem proj2_apply (V : FVec Ideal S8192x128 .f32) (w : FVec Ideal S128x128 .f32) (k : Fin 8192) (j : Fin 128) :
    val_main_v11 (F := Ideal) V w (ix2 k j) = feat V w k j := by
  rw [val_main_v11_apply]
  unfold feat
  refine Finset.sum_congr rfl fun l _ => ?_
  have el : lidx_main_v11 (ix2 k j) l = ix2 k l := funext fun a => match a with | ⟨0, _⟩ => rfl | ⟨1, _⟩ => rfl
  have er : ridx_main_v11 (ix2 k j) l = ix2 l j := funext fun a => match a with | ⟨0, _⟩ => rfl | ⟨1, _⟩ => rfl
  rw [el, er]
/-- The third relation's projected features at `(k, j)`. -/
theorem proj3_apply (V : FVec Ideal S8192x128 .f32) (w : FVec Ideal S128x128 .f32) (k : Fin 8192) (j : Fin 128) :
    val_main_v13 (F := Ideal) V w (ix2 k j) = feat V w k j := by
  rw [val_main_v13_apply]
  unfold feat
  refine Finset.sum_congr rfl fun l _ => ?_
  have el : lidx_main_v13 (ix2 k j) l = ix2 k l := funext fun a => match a with | ⟨0, _⟩ => rfl | ⟨1, _⟩ => rfl
  have er : ridx_main_v13 (ix2 k j) l = ix2 l j := funext fun a => match a with | ⟨0, _⟩ => rfl | ⟨1, _⟩ => rfl
  rw [el, er]

/-- The first relation's aggregate at `(i, j)`: the mask row against the projected column. -/
theorem agg1_apply (V : FVec Ideal S8192x128 .f32) (adj : IVec S8192x8192 32) (w : FVec Ideal S128x128 .f32)
    (i : Fin 8192) (j : Fin 128) :
    val_main_v10 (F := Ideal) V adj w (ix2 i j) = agg adj 1#32 (feat V w) i j := by
  rw [val_main_v10_apply]
  unfold agg
  refine Finset.sum_congr rfl fun k _ => ?_
  have el : lidx_main_v10 (ix2 i j) k = ix2 i k := funext fun a => match a with | ⟨0, _⟩ => rfl | ⟨1, _⟩ => rfl
  have er : ridx_main_v10 (ix2 i j) k = ix2 k j := funext fun a => match a with | ⟨0, _⟩ => rfl | ⟨1, _⟩ => rfl
  rw [mask1_apply, el, er, proj1_apply]
/-- The second relation's aggregate at `(i, j)`. -/
theorem agg2_apply (V : FVec Ideal S8192x128 .f32) (adj : IVec S8192x8192 32) (w : FVec Ideal S128x128 .f32)
    (i : Fin 8192) (j : Fin 128) :
    val_main_v12 (F := Ideal) V adj w (ix2 i j) = agg adj 2#32 (feat V w) i j := by
  rw [val_main_v12_apply]
  unfold agg
  refine Finset.sum_congr rfl fun k _ => ?_
  have el : lidx_main_v12 (ix2 i j) k = ix2 i k := funext fun a => match a with | ⟨0, _⟩ => rfl | ⟨1, _⟩ => rfl
  have er : ridx_main_v12 (ix2 i j) k = ix2 k j := funext fun a => match a with | ⟨0, _⟩ => rfl | ⟨1, _⟩ => rfl
  rw [mask2_apply, el, er, proj2_apply]
/-- The third relation's aggregate at `(i, j)`. -/
theorem agg3_apply (V : FVec Ideal S8192x128 .f32) (adj : IVec S8192x8192 32) (w : FVec Ideal S128x128 .f32)
    (i : Fin 8192) (j : Fin 128) :
    val_main_v14 (F := Ideal) V adj w (ix2 i j) = agg adj 3#32 (feat V w) i j := by
  rw [val_main_v14_apply]
  unfold agg
  refine Finset.sum_congr rfl fun k _ => ?_
  have el : lidx_main_v14 (ix2 i j) k = ix2 i k := funext fun a => match a with | ⟨0, _⟩ => rfl | ⟨1, _⟩ => rfl
  have er : ridx_main_v14 (ix2 i j) k = ix2 k j := funext fun a => match a with | ⟨0, _⟩ => rfl | ⟨1, _⟩ => rfl
  rw [mask3_apply, el, er, proj3_apply]

/-- The bias row broadcast to every row, at `(i, j)`. -/
theorem bias_apply (bias : FVec Ideal S128 .f32) (i : Fin 8192) (j : Fin 128) :
    val_main_v18 (F := Ideal) bias (ix2 i j) = bias (ix1 j) := by
  rw [val_main_v18_apply, val_main_v17_apply]
  exact congrArg bias (funext fun a => match a with | ⟨0, _⟩ => rfl)

/-- The reference's result is the specification's convolution. -/
theorem result_eq (V : FVec Ideal S8192x128 .f32) (adj : IVec S8192x8192 32) (w1 w2 w3 : FVec Ideal S128x128 .f32)
    (bias : FVec Ideal S128 .f32) :
    addf (F := Ideal) (addf (F := Ideal) (addf (F := Ideal) (Host.dotGeneral (F := Ideal) dot_S8192x8192_S8192x128_S8192x128_1_0_0_1_n_n none (uitofp (F := Ideal) .f32 (cmpi .eq (adj) (broadcastInDim S8192x8192 ![] bcast_S_S8192x8192 (constantI S_ 32 1#32)))) (Host.dotGeneral (F := Ideal) dot_S8192x128_S128x128_S8192x128_1_0_0_1_n_n none (V) (w1))) (Host.dotGeneral (F := Ideal) dot_S8192x8192_S8192x128_S8192x128_1_0_0_1_n_n none (uitofp (F := Ideal) .f32 (cmpi .eq (adj) (broadcastInDim S8192x8192 ![] bcast_S_S8192x8192 (constantI S_ 32 2#32)))) (Host.dotGeneral (F := Ideal) dot_S8192x128_S128x128_S8192x128_1_0_0_1_n_n none (V) (w2)))) (Host.dotGeneral (F := Ideal) dot_S8192x8192_S8192x128_S8192x128_1_0_0_1_n_n none (uitofp (F := Ideal) .f32 (cmpi .eq (adj) (broadcastInDim S8192x8192 ![] bcast_S_S8192x8192 (constantI S_ 32 3#32)))) (Host.dotGeneral (F := Ideal) dot_S8192x128_S128x128_S8192x128_1_0_0_1_n_n none (V) (w3)))) (broadcastInDim S8192x128 ![0, 1] bcast_S1x128_S8192x128_0_1 (broadcastInDim S1x128 ![1] bcast_S128_S1x128_1 (bias)))
      = Cert.GConv.G V adj w1 w2 w3 bias := by
  rw [val_main_v19_eq (F := Ideal) V adj w1 w2 w3 bias]
  funext y
  obtain ⟨p, q, rfl⟩ : ∃ (p : Fin 8192) (q : Fin 128), y = ix2 p q := ⟨y 0, y 1, eq_ix2 y⟩
  rw [G_ix2, val_main_v19_apply, val_main_v16_apply, val_main_v15_apply, agg1_apply, agg2_apply, agg3_apply,
    bias_apply]
  rfl

end Cert.ReferenceIdeal.RefValue

end
-- ==== Proof.lean ====
/-
  The graph convolution kernel against its reference.

  The kernel first multiplies the node features by the three relations' weight matrices laid side by side, keeping
  the 8192 × 384 array of projected features, then for each block of 512 nodes sums, relation by relation, the
  projected rows of the neighbours the relation's 0/1 mask selects, and adds the bias. The reference multiplies each
  mask by its own projection `V w_c` and adds the three products and the bias in the same order. Over the extended
  reals a product into a zero accumulator is the plain sum over the contracted index, a change of float format is the
  identity, and column `128 c' + j` of the side-by-side projection is column `j` of relation `c' + 1`'s projection: the
  two results are one expression entry by entry, so no finiteness is used.

  Each program's run: the word-level kernel and its idealization are one text, run as host step, region, host step,
  region, every array of the core named at each boundary; the reference is a line of host operations.
-/
import proofs.«142277_g24739011625684_cont_8to1_1532_25_alg».proof.Defs
import proofs.«142277_g24739011625684_cont_8to1_1532_25_alg».proof.Proof.Gen.Kernel
import proofs.«142277_g24739011625684_cont_8to1_1532_25_alg».proof.Proof.Gen.KernelIdeal
import proofs.«142277_g24739011625684_cont_8to1_1532_25_alg».proof.Proof.Gen.ReferenceIdeal
import proofs.«142277_g24739011625684_cont_8to1_1532_25_alg».proof.Proof.Gen.Pre_finite_inputs
import proofs.«142277_g24739011625684_cont_8to1_1532_25_alg».proof.Proof.Gen.ReferenceIdeal.Run
import proofs.«142277_g24739011625684_cont_8to1_1532_25_alg».proof.Proof.Kernel.Run
import proofs.«142277_g24739011625684_cont_8to1_1532_25_alg».proof.Proof.KernelIdeal.ValueRun
import proofs.«142277_g24739011625684_cont_8to1_1532_25_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the convolution of the arguments in their result arrays. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
